-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x64 : Shape := ⟨2, ![1024, 64]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S1x8192, .f32⟩
  | .hbm, ⟨12, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 17
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Cosine.lean ====
/-
  The function both programs compute, over the extended reals. The arguments `a` and `b` are 8192 rows of 64
  entries each; the result has one entry per pair (row `n` of `a`, row `m` of `b`): the rows' inner product
  divided by the product of the two rows' lengths, the cosine of the angle between them. A row's length is the
  square root of the sum of its squares, the sum started from the zero word (the host's reduction starts from its
  initial value, which both programs spell as the f32 pattern of zero). Nothing here is specific to either
  program: the quotient is `Ideal.div` and the root `Ideal.sqrt`, the two operations both programs apply.
-/
import Idealize.ShloMosaic.PureOps.Ideal
import Idealize.ShloMosaic.Lib.ValueIdx

noncomputable section

namespace Cert.Cosine

open Idealize.ShloMosaic Idealize.ShloMosaic.ValueIdx

/-- An argument: 8192 rows of 64 entries. -/
abbrev Rows : Shape := ⟨2, ![8192, 64]⟩
/-- The result: one entry per pair of rows. -/
abbrev Pairs : Shape := ⟨2, ![8192, 8192]⟩

/-- The inner product of row `n` of `a` with row `m` of `b`. -/
def rowDot (a b : Rows.Idx → EReal) (n m : Fin 8192) : EReal :=
  ∑ k : Fin 64, a (ix2 n k) * b (ix2 m k)

/-- The length of row `n` of `a`: the root of the sum of its squares, summed from the zero word. -/
def rowLen (a : Rows.Idx → EReal) (n : Fin 8192) : EReal :=
  Ideal.sqrt (Ideal.ofBits .f32 0x00000000#32 + ∑ k : Fin 64, a (ix2 n k) * a (ix2 n k))

/-- The cosine of every pair of rows. -/
def cosine (a b : Rows.Idx → EReal) : Pairs.Idx → EReal := fun i =>
  Ideal.div (rowDot a b (i 0) (i 1)) (rowLen a (i 0) * rowLen b (i 1))

end Cert.Cosine

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BlockValue.lean ====
/-
  What the kernel's body stores at one grid point, read at an entry. The body loads a block `x0` of 1024 rows of
  `a`, a block `x1` of 1024 rows of `b`, the 1024 lengths `x2` of those rows of `a` (a column) and the 1024
  lengths `x3` of those rows of `b` (a row), and stores, at entry `(p, q)` of its 1024 × 1024 block, the inner
  product of row `p` of `x0` with row `q` of `x1` divided by the product of the two lengths. At the ideal
  instance the change of format before the product is the identity, the product into the zero accumulator is the
  plain sum over the 64 shared coordinates, the column is read at its row and the row at its column.
-/
import proofs.«178908_j28467043237895_1_alg».proof.Proof.Gen.KernelIdeal.Skeleton
import proofs.«178908_j28467043237895_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The product's operand indices: row of the result, shared coordinate -/

theorem lhs_axis0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_axis1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_axis0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_axis1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The product of two blocks of rows into the zero accumulator, at `(p, q)`: row `p` of the left block against
    row `q` of the right one, summed over the 64 coordinates they share. -/
theorem rows_product_at (y0 y1 : FVec Ideal S1024x64 .bf16) (p q : Fin 1024) :
    matmul dot_S1024x64_S1024x64_S1024x1024_1_1_0_0_n_n none y0 y1 (constant S1024x1024 .f32 0x00000000#32) (ix2 p q)
      = ∑ k : Fin 64, y0 (ix2 p k) * y1 (ix2 q k) := by
  simp only [matmul]
  rw [Ideal.matmul_constant_zero_apply, ← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 p q) ((ValueIdx.contrEquiv1 dot_S1024x64_S1024x64_S1024x1024_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S1024x64_S1024x64_S1024x1024_1_1_0_0_n_n.rhsIdx (ix2 p q) ((ValueIdx.contrEquiv1 dot_S1024x64_S1024x64_S1024x1024_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]

/-- THE BODY'S STORED VALUE at entry `(p, q)` of the block: the inner product of row `p` of `x0` with row `q` of
    `x1`, over the length at `p` of the column `x2` times the length at `q` of the row `x3`. -/
theorem stored_at (x0 x1 : Vec Ideal S1024x64 .f32) (x2 : Vec Ideal S1024x1 .f32) (x3 : Vec Ideal S1x1024 .f32) (p q : Fin 1024) :
    k0_pay1 (F := Ideal) x0 x1 x2 x3 (ix2 p q)
      = Ideal.div (∑ k : Fin 64, x0 (ix2 p k) * x1 (ix2 q k)) (x2 (ix2 p (0 : Fin 1)) * x3 (ix2 (0 : Fin 1) q)) := by
  unfold k0_pay1
  rw [divf_apply, mulf_apply, rows_product_at, shapeCast_self, shapeCast_self,
    broadcastTo_a1_ab_apply, broadcastTo_1b_ab_apply]
  rfl

end Cert.KernelIdeal.Block

end
-- ==== Proof.RowLengths.lean ====
/-
  The two arrays of lengths the kernel's region finds. Before the region, the program squares `a` entry by entry,
  sums each row from the zero word, lays the 8192 sums out as a column and takes the root of each: the column of
  the lengths of `a`'s rows. For `b` it sums and takes the roots first and then lays the 8192 lengths out as one
  row. Read at an entry, the column at row `n` is the length of row `n` of `a`, and the row at column `m` the
  length of row `m` of `b`.
-/
import proofs.«178908_j28467043237895_1_alg».proof.Proof.Gen.KernelIdeal.Frame
import proofs.«178908_j28467043237895_1_alg».proof.Proof.Cosine
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Lengths

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The column the region finds for `a`: the roots of the rows' sums of squares, the sums laid out as a column first. -/
theorem column_a (c : Dev nD) :
    (V m c main_v0 : S8192x1.Idx → EReal)
      = Host.sqrt (F := Ideal) (broadcastInDim S8192x1 ![0] bcast_S8192_S8192x1_0
          (Host.reduceAdd (mulf (m ((c : Thread nD τ).loc main_arg0)) (m ((c : Thread nD τ).loc main_arg0)))
            (constant (F := Ideal) S_ .f32 0x00000000#32) reducesTo_S8192x64_S8192_d1 h_S_)) := by
  dsimp only [V]
  simp only [hostOps0, hostOps0_1, hostOps0_2, List.flatten_cons, List.flatten_nil, List.append_nil, List.cons_append,
    List.nil_append]
  after_results
  rfl

/-- The row the region finds for `b`: the roots of the rows' sums of squares, laid out as one row. -/
theorem row_b (c : Dev nD) :
    (V m c main_v2 : S1x8192.Idx → EReal)
      = broadcastInDim S1x8192 ![1] bcast_S8192_S1x8192_1 (Host.sqrt (F := Ideal)
          (Host.reduceAdd (mulf (m ((c : Thread nD τ).loc main_arg1)) (m ((c : Thread nD τ).loc main_arg1)))
            (constant (F := Ideal) S_ .f32 0x00000000#32) reducesTo_S8192x64_S8192_d1 h_S_)) := by
  dsimp only [V]
  simp only [hostOps0, hostOps0_1, hostOps0_2, List.flatten_cons, List.flatten_nil, List.append_nil, List.cons_append,
    List.nil_append]
  after_results
  rfl

/-- A row's sum of squares from the zero word, as the host computes it, is the sum the length is the root of. -/
theorem sum_squares_at (x : FVec Ideal S8192x64 .f32) (n : Fin 8192) :
    Host.reduceAdd (F := Ideal) (mulf x x) (constant (F := Ideal) S_ .f32 0x00000000#32) reducesTo_S8192x64_S8192_d1 h_S_ (ix1 n)
      = Ideal.ofBits .f32 0x00000000#32 + ∑ k : Fin 64, x (ix2 n k) * x (ix2 n k) := by
  generalize hy : mulf x x = y
  simp only [Host.reduceAdd, Ideal.hostReduceAdd_def]
  rw [Ideal.hostReduceAdd_single reducesTo_S8192x64_S8192_d1 (by decide)]
  refine congrArg (_ + ·) (Finset.sum_congr rfl fun k _ => ?_)
  subst hy
  exact congrArg (fun j => x j * x j) (funext fun d => Fin.ext (by match d with | ⟨0, _⟩ => rfl | ⟨1, _⟩ => rfl))

/-- The sums laid out as a column and then rooted, at row `n`: the length of row `n`. -/
theorem column_value (x : FVec Ideal S8192x64 .f32) (n : Fin 8192) :
    Host.sqrt (F := Ideal) (broadcastInDim S8192x1 ![0] bcast_S8192_S8192x1_0
        (Host.reduceAdd (mulf x x) (constant (F := Ideal) S_ .f32 0x00000000#32) reducesTo_S8192x64_S8192_d1 h_S_)) (ix2 n (0 : Fin 1))
      = Cert.Cosine.rowLen x n := by
  show Ideal.sqrt (broadcastInDim (s := S8192) S8192x1 (![0] : Fin 1 → Fin S8192x1.rank) bcast_S8192_S8192x1_0 _ (ix2 n (0 : Fin 1))) = _
  rw [broadcastInDim_apply _ bcast_S8192_S8192x1_0 _ (ix2 n (0 : Fin 1)) (ix1 n) (fun d => match d with
    | ⟨0, _⟩ => by show n.val = if (8192 : Nat) = 1 then 0 else n.val; rw [if_neg (by decide)]), sum_squares_at]
  rfl

/-- The sums rooted and then laid out as a row, at column `n`: the length of row `n`. -/
theorem row_value (x : FVec Ideal S8192x64 .f32) (n : Fin 8192) :
    broadcastInDim S1x8192 ![1] bcast_S8192_S1x8192_1 (Host.sqrt (F := Ideal)
        (Host.reduceAdd (mulf x x) (constant (F := Ideal) S_ .f32 0x00000000#32) reducesTo_S8192x64_S8192_d1 h_S_)) (ix2 (0 : Fin 1) n)
      = Cert.Cosine.rowLen x n := by
  rw [broadcastInDim_apply _ bcast_S8192_S1x8192_1 _ (ix2 (0 : Fin 1) n) (ix1 n) (fun d => match d with
    | ⟨0, _⟩ => by show n.val = if (8192 : Nat) = 1 then 0 else n.val; rw [if_neg (by decide)])]
  show Ideal.sqrt (Host.reduceAdd (F := Ideal) _ _ reducesTo_S8192x64_S8192_d1 h_S_ (ix1 n)) = _
  rw [sum_squares_at]
  rfl

/-- The column the region finds, at row `n`, is the length of row `n` of `a`. -/
theorem column_a_at (c : Dev nD) (n : Fin 8192) :
    (V m c main_v0 : S8192x1.Idx → EReal) (ix2 n (0 : Fin 1)) = Cert.Cosine.rowLen (m ((c : Thread nD τ).loc main_arg0)) n :=
  (congrFun (column_a m c) (ix2 n (0 : Fin 1))).trans (column_value _ n)

/-- The row the region finds, at column `n`, is the length of row `n` of `b`. -/
theorem row_b_at (c : Dev nD) (n : Fin 8192) :
    (V m c main_v2 : S1x8192.Idx → EReal) (ix2 (0 : Fin 1) n) = Cert.Cosine.rowLen (m ((c : Thread nD τ).loc main_arg1)) n :=
  (congrFun (row_b m c) (ix2 (0 : Fin 1) n)).trans (row_value _ n)

end Cert.KernelIdeal.Lengths

end
-- ==== Proof.KernelArray.lean ====
/-
  The kernel's result array is the cosine of every pair of rows. The grid has 8 × 8 points; point `(g, h)` loads
  rows `1024 g … 1024 g + 1023` of `a` and their lengths, rows `1024 h … 1024 h + 1023` of `b` and their lengths,
  and writes back block `(g, h)` of the result. Entry `(p, q)` of that block is entry `(1024 g + p, 1024 h + q)`
  of the array, and the body's stored value there is the inner product of those two rows over the product of their
  lengths: the block is the cosine array read through the block. The 64 blocks tile the array (the block holding
  entry `(n, m)` is `(n / 1024, m / 1024)`), so the array ends holding the cosine array whole.
-/
import proofs.«178908_j28467043237895_1_alg».proof.Proof.Gen.KernelIdeal.Value
import proofs.«178908_j28467043237895_1_alg».proof.Proof.BlockValue
import proofs.«178908_j28467043237895_1_alg».proof.Proof.RowLengths
import proofs.«178908_j28467043237895_1_alg».proof.Proof.Cosine
import Idealize.ShloMosaic.Lib.Pipeline.Value
import Idealize.ShloMosaic.Lib.ValueIdx

noncomputable section

namespace Cert.KernelIdeal.Pairs

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the 64 points: the blocks of `a` and of its lengths move with the result's block
    row, the blocks of `b` and of its lengths with the result's block column, and both stay below 8. -/
theorem blocks_of_point : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 blocks of the result is some point's. -/
theorem every_block : ∀ (g h : Fin 8), ∃ t : Fin cfg0.N, win0_4.index t = ![g.val, h.val] :=
  (by decide +kernel : ∀ (g h : Fin 8), ∃ t : Fin grid0.N, win0_4.index t = ![g.val, h.val])

/-! ## Each loaded block, read at an entry, as an entry of its array -/

/-- Row `p` of the block of `a` at point `t` is row `n` of `a`, for `n` the block row's offset plus `p`. -/
theorem a_block_at (c : Dev nD) (t : Fin cfg0.N) (p : Fin 1024) (k : Fin 64) (n : Fin 8192)
    (hn : n.val = win0_4.index t (0 : Fin 2) * 1024 + p.val) :
    (iblk m c 0 t : Vec Ideal S1024x64 .f32) (ix2 p k) = (m ((c : Thread nD τ).loc main_arg0) : S8192x64.Idx → EReal) (ix2 n k) := by
  obtain ⟨e0, e1, -⟩ := blocks_of_point t
  unfold iblk
  rw [View.read_apply]
  show V m c main_arg0 _ = _
  rw [V_main_arg0]
  refine congrArg _ (funext fun d => Fin.ext ?_)
  match d with
  | ⟨0, _⟩ => show win0_0.index t (0 : Fin 2) * 1024 + 1 * p.val = n.val; omega
  | ⟨1, _⟩ => show win0_0.index t (1 : Fin 2) * 64 + 1 * k.val = k.val; omega

/-- Row `q` of the block of `b` at point `t` is row `n` of `b`, for `n` the block column's offset plus `q`. -/
theorem b_block_at (c : Dev nD) (t : Fin cfg0.N) (q : Fin 1024) (k : Fin 64) (n : Fin 8192)
    (hn : n.val = win0_4.index t (1 : Fin 2) * 1024 + q.val) :
    (iblk m c 1 t : Vec Ideal S1024x64 .f32) (ix2 q k) = (m ((c : Thread nD τ).loc main_arg1) : S8192x64.Idx → EReal) (ix2 n k) := by
  obtain ⟨-, -, e0, e1, -⟩ := blocks_of_point t
  unfold iblk
  rw [View.read_apply]
  show V m c main_arg1 _ = _
  rw [V_main_arg1]
  refine congrArg _ (funext fun d => Fin.ext ?_)
  match d with
  | ⟨0, _⟩ => show win0_1.index t (0 : Fin 2) * 1024 + 1 * q.val = n.val; omega
  | ⟨1, _⟩ => show win0_1.index t (1 : Fin 2) * 64 + 1 * k.val = k.val; omega

/-- Entry `p` of the block of `a`'s lengths at point `t` is the length of row `n` of `a`. -/
theorem a_len_block_at (c : Dev nD) (t : Fin cfg0.N) (p : Fin 1024) (n : Fin 8192)
    (hn : n.val = win0_4.index t (0 : Fin 2) * 1024 + p.val) :
    (iblk m c 2 t : Vec Ideal S1024x1 .f32) (ix2 p (0 : Fin 1)) = Cert.Cosine.rowLen (m ((c : Thread nD τ).loc main_arg0)) n := by
  obtain ⟨-, -, -, -, e0, e1, -⟩ := blocks_of_point t
  rw [← Cert.KernelIdeal.Lengths.column_a_at m c n]
  unfold iblk
  rw [View.read_apply]
  show V m c main_v0 _ = _
  refine congrArg _ (funext fun d => Fin.ext ?_)
  match d with
  | ⟨0, _⟩ => show win0_2.index t (0 : Fin 2) * 1024 + 1 * p.val = n.val; omega
  | ⟨1, _⟩ => show win0_2.index t (1 : Fin 2) * 1 + 1 * 0 = 0; omega

/-- Entry `q` of the block of `b`'s lengths at point `t` is the length of row `n` of `b`. -/
theorem b_len_block_at (c : Dev nD) (t : Fin cfg0.N) (q : Fin 1024) (n : Fin 8192)
    (hn : n.val = win0_4.index t (1 : Fin 2) * 1024 + q.val) :
    (iblk m c 3 t : Vec Ideal S1x1024 .f32) (ix2 (0 : Fin 1) q) = Cert.Cosine.rowLen (m ((c : Thread nD τ).loc main_arg1)) n := by
  obtain ⟨-, -, -, -, -, -, e0, e1, -⟩ := blocks_of_point t
  rw [← Cert.KernelIdeal.Lengths.row_b_at m c n]
  unfold iblk
  rw [View.read_apply]
  show V m c main_v2 _ = _
  refine congrArg _ (funext fun d => Fin.ext ?_)
  match d with
  | ⟨0, _⟩ => show win0_3.index t (0 : Fin 2) * 1 + 1 * 0 = 0; omega
  | ⟨1, _⟩ => show win0_3.index t (1 : Fin 2) * 1024 + 1 * q.val = n.val; omega

/-! ## What a point writes back, the tiling, and the whole array -/

/-- The cosine array of the arguments as the program was launched with them. -/
abbrev result (c : Dev nD) : S8192x8192.Idx → EReal :=
  Cert.Cosine.cosine (m ((c : Thread nD τ).loc main_arg0)) (m ((c : Thread nD τ).loc main_arg1))

/-- WHAT POINT `t` WRITES BACK is its block of the cosine array. -/
theorem flushed_eq (c : Dev nD) (t : Fin cfg0.N) :
    (dats m 0 c).flushed 4 t = ((cfg0.win 4).blk t).view.read (Elt Ideal) (result m c) := by
  rw [flushed4]
  unfold out0_4
  rw [View.canon_unit_zero zeros]
  simp only [View.ld_unit_zero (S := S1024x64) zeros, View.ld_unit_zero (S := S1024x1) zeros, View.ld_unit_zero (S := S1x1024) zeros]
  obtain ⟨-, -, -, -, -, -, -, -, b0, b1⟩ := blocks_of_point t
  funext j
  obtain ⟨p, q, rfl⟩ : ∃ (p : Fin 1024) (q : Fin 1024), j = ix2 p q := ⟨j 0, j 1, eq_ix2 j⟩
  have hp := p.isLt
  have hq := q.isLt
  obtain ⟨n, hn⟩ : ∃ n : Fin 8192, n.val = win0_4.index t (0 : Fin 2) * 1024 + p.val := ⟨⟨_, by omega⟩, rfl⟩
  obtain ⟨n', hn'⟩ : ∃ n' : Fin 8192, n'.val = win0_4.index t (1 : Fin 2) * 1024 + q.val := ⟨⟨_, by omega⟩, rfl⟩
  have hi : ((cfg0.win 4).blk t).view.emb (ix2 p q) = ix2 n n' :=
    funext fun d => Fin.ext (by
      match d with
      | ⟨0, _⟩ => show win0_4.index t (0 : Fin 2) * 1024 + 1 * p.val = n.val; omega
      | ⟨1, _⟩ => show win0_4.index t (1 : Fin 2) * 1024 + 1 * q.val = n'.val; omega)
  show k0_pay1 (F := Ideal) (iblk m c 0 t) (iblk m c 1 t) (iblk m c 2 t) (iblk m c 3 t) (ix2 p q)
    = result m c (((cfg0.win 4).blk t).view.emb (ix2 p q))
  rw [hi]
  refine (Cert.KernelIdeal.Block.stored_at (iblk m c 0 t) (iblk m c 1 t) (iblk m c 2 t) (iblk m c 3 t) p q).trans ?_
  rw [a_len_block_at m c t p n hn, b_len_block_at m c t q n' hn']
  refine congrArg (fun s => Ideal.div s _) (Finset.sum_congr rfl fun k _ => ?_)
  rw [a_block_at m c t p k n hn, b_block_at m c t q k n' hn']

/-- An entry of the array is in point `t`'s block iff each coordinate is in the block's range on its axis. -/
theorem mem_block (t : Fin cfg0.N) (i : S8192x8192.Idx) :
    i ∈ ((cfg0.win 4).blk t).view.set ↔ ∀ d : Fin 2, win0_4.index t d * S1024x1024.size d ≤ (i d).val ∧ (i d).val < win0_4.index t d * S1024x1024.size d + S1024x1024.size d := by
  show i ∈ ((View.whole main_v3).slice (win0_4.rect t)).set ↔ _
  rw [View.set_slice_whole, Rect.mem_set_unit]
  exact Iff.rfl

/-- THE BLOCKS TILE THE ARRAY: entry `(n, m)` is in the block of the point whose block is `(n / 1024, m / 1024)`. -/
theorem tiled (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have g0 : win0_4.index t (0 : Fin 2) = (i 0).val / 1024 := congrFun ht 0
  have g1 : win0_4.index t (1 : Fin 2) = (i 1).val / 1024 := congrFun ht 1
  refine ⟨t, flush0_4 t, ?_⟩
  rw [mem_block]
  intro d
  match d with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE ARRAY after the run is the cosine array. -/
theorem final (c : Dev nD) : (dats m 0 c).arrAt 4 cfg0.N = result m c :=
  (dats m 0 c).arrAt_eq_of_cover 4 (result m c) (fun t _ => flushed_eq m c t) tiled

/-- The kernel's run, read: the result array ends at the cosine array of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Pairs

end
-- ==== Proof.ReferenceCosine.lean ====
/-
  The reference's result is the cosine of every pair of rows. The reference takes the product of `a` with the
  transpose of `b` (entry `(n, m)`: the sum over the 64 shared coordinates), the two vectors of row lengths (each
  the root of a row's sum of squares, summed from the zero word), lays the first out along the rows and the second
  along the columns, multiplies them and divides. Read at an entry, one operation at a time, that is the inner
  product of row `n` of `a` with row `m` of `b` over the product of the two lengths.
-/
import proofs.«178908_j28467043237895_1_alg».proof.Proof.Gen.ReferenceIdeal.Read
import proofs.«178908_j28467043237895_1_alg».proof.Proof.Cosine

noncomputable section

namespace Cert.ReferenceIdeal.Pairs

open Cert.ReferenceIdeal Cert.ReferenceIdeal.Gen Cert.ReferenceIdeal.Read Idealize.ShloMosaic Idealize.ShloMosaic.ValueIdx

/-- The reference's last stage, as a function of the two arguments, is `Cosine.cosine`. -/
theorem result_is_cosine (a b : S8192x64.Idx → EReal) :
    val_main_v8 (F := Ideal) a b = Cert.Cosine.cosine a b := by
  funext i
  have ea : ∀ k : Fin 64, lidx_main_v0 i k = ix2 (i 0) k := fun k =>
    funext fun d => Fin.ext (by match d with | ⟨0, _⟩ => rfl | ⟨1, _⟩ => rfl)
  have eb : ∀ k : Fin 64, ridx_main_v0 i k = ix2 (i 1) k := fun k =>
    funext fun d => Fin.ext (by match d with | ⟨0, _⟩ => rfl | ⟨1, _⟩ => rfl)
  have ela : ∀ k : Fin 64, idx_main_call0_v1 (idx_main_v3 (idx_main_v5 i)) k = ix2 (i 0) k := fun k =>
    funext fun d => Fin.ext (by match d with | ⟨0, _⟩ => rfl | ⟨1, _⟩ => rfl)
  have elb : ∀ k : Fin 64, idx_main_call1_v1 (idx_main_v4 (idx_main_v6 i)) k = ix2 (i 1) k := fun k =>
    funext fun d => Fin.ext (by match d with | ⟨0, _⟩ => rfl | ⟨1, _⟩ => rfl)
  rw [val_main_v8_apply, val_main_v0_apply, val_main_v7_apply, val_main_v5_apply, val_main_v3_apply, val_main_v1_apply,
    val_main_call0_v1_apply, val_main_v6_apply, val_main_v4_apply, val_main_v2_apply, val_main_call1_v1_apply]
  simp only [val_main_call0_v0_apply, val_main_call1_v0_apply, val_main_call0_cst_apply, val_main_call1_cst_apply,
    ea, eb, ela, elb, Ideal.hostDivf_def, Ideal.mulf_def, Ideal.hostUnary_sqrt_def, Ideal.ofBits_def]
  rfl

end Cert.ReferenceIdeal.Pairs

end
-- ==== Proof.lean ====
/-
  Pairwise cosine similarity: for `a` and `b` of 8192 rows of 64 entries each, the 8192 × 8192 array whose entry
  `(n, m)` is the inner product of row `n` of `a` with row `m` of `b` divided by the product of the two rows'
  Euclidean lengths (`Cert.Cosine.cosine`, Proof/Cosine.lean).

  The kernel computes the two vectors of lengths before its grid (a column for `a`, a row for `b`) and, at each of
  8 × 8 grid points, multiplies a block of 1024 rows of `a` with a block of 1024 rows of `b` along their 64 shared
  coordinates into a zero accumulator, after a change of float format that is the identity over the extended
  reals, and divides by the outer product of the two blocks of lengths. The reference forms the whole product, the
  two length vectors, their outer product, and divides. Both are the same function of the arguments, entry by
  entry, with no algebraic law needed beyond reading each side at an entry: the sums run over the same 64
  coordinates in the same order, and quotient, product and root are the same operations on both sides; so the
  precondition (finite inputs) is never opened.

  Proof/BlockValue.lean reads the body's stored value at an entry of its block; Proof/RowLengths.lean the two length
  arrays the grid finds; Proof/KernelArray.lean puts each point's block in its place in the array and shows the 64
  blocks tile it; Proof/ReferenceCosine.lean reads the reference's operations one at a time at an entry. The three
  frames are the generated ones (the reference's: its generated run with the result dropped), and the
  idealization rewrote no operation.
-/
import proofs.«178908_j28467043237895_1_alg».proof.Defs
import proofs.«178908_j28467043237895_1_alg».proof.Proof.Gen.Kernel
import proofs.«178908_j28467043237895_1_alg».proof.Proof.Gen.Kernel.Skeleton
import proofs.«178908_j28467043237895_1_alg».proof.Proof.Gen.Kernel.Launch
import proofs.«178908_j28467043237895_1_alg».proof.Proof.Gen.Kernel.Points
import proofs.«178908_j28467043237895_1_alg».proof.Proof.Gen.Kernel.Frame
import proofs.«178908_j28467043237895_1_alg».proof.Proof.Gen.KernelIdeal
import proofs.«178908_j28467043237895_1_alg».proof.Proof.Gen.KernelIdeal.Skeleton
import proofs.«178908_j28467043237895_1_alg».proof.Proof.Gen.KernelIdeal.Launch
import proofs.«178908_j28467043237895_1_alg».proof.Proof.Gen.KernelIdeal.Points
import proofs.«178908_j28467043237895_1_alg».proof.Proof.Gen.KernelIdeal.Frame
import proofs.«178908_j28467043237895_1_alg».proof.Proof.Gen.ReferenceIdeal
import proofs.«178908_j28467043237895_1_alg».proof.Proof.Gen.Pre_finite_inputs
import proofs.«178908_j28467043237895_1_alg».proof.Proof.Gen.KernelIdeal.Value
import proofs.«178908_j28467043237895_1_alg».proof.Proof.Gen.ReferenceIdeal.Run
import proofs.«178908_j28467043237895_1_alg».proof.Proof.Gen.ReferenceIdeal.Read
import proofs.«178908_j28467043237895_1_alg».proof.Proof.Cosine
import proofs.«178908_j28467043237895_1_alg».proof.Proof.KernelArray
import proofs.«178908_j28467043237895_1_alg».proof.Proof.ReferenceCosine
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on `a` and `b`, both programs end with the cosine array of
    those arguments: the kernel's result array by its 64 blocks, the reference's by its operations read at an entry. -/
theorem algebraic : Cert.algebraic_KernelIdeal_ReferenceIdeal := by
  intro m ρ m' ρ' _ hagree
  refine ⟨fun c => Cert.KernelIdeal.Pairs.result m c, Cert.KernelIdeal.Pairs.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Pairs.result_is_cosine, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
